-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16x1024x1024 : Shape := ⟨3, ![16, 1024, 1024]⟩
abbrev S16x1024 : Shape := ⟨2, ![16, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S2048x1024 .f32) (main_arg1 : FVec F S16x1024x1024 .f32) (main_arg2 : FVec F S16x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S2048x1024 : Shape := ⟨2, ![2048, 1024]⟩
abbrev S16x1024x1024 : Shape := ⟨3, ![16, 1024, 1024]⟩
abbrev S16x1024 : Shape := ⟨2, ![16, 1024]⟩
abbrev S16384x1024 : Shape := ⟨2, ![16384, 1024]⟩
abbrev S1x16384 : Shape := ⟨2, ![1, 16384]⟩
abbrev S2048x16384 : Shape := ⟨2, ![2048, 16384]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S16x1024x1024, .f32⟩
  | .hbm, ⟨2, _⟩ => ⟨S16x1024, .f32⟩
  | .hbm, ⟨3, _⟩ => ⟨S16384x1024, .f32⟩
  | .hbm, ⟨4, _⟩ => ⟨S1x16384, .f32⟩
  | .hbm, ⟨5, _⟩ => ⟨S2048x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x1024x1024_S16384x1024 : S16x1024x1024.ShapeCasts S16384x1024
  shapeCasts_S16x1024_S1x16384 : S16x1024.ShapeCasts S1x16384
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x16384.size a
  hwx0_3 : ∀ i : grid0.Coords, EltTy.bits .f32 = 32 ∨ (Rect.block (s := S2048x16384) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S16x1024x1024 : Shape := ⟨3, ![16, 1024, 1024]⟩
abbrev S16x1024 : Shape := ⟨2, ![16, 1024]⟩
abbrev S2048x16x1024 : Shape := ⟨3, ![2048, 16, 1024]⟩
abbrev S1x16x1024 : Shape := ⟨3, ![1, 16, 1024]⟩
abbrev S2048x16384 : Shape := ⟨2, ![2048, 16384]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024x1024, .f32⟩
  | .hbm, ⟨2, _⟩ => ⟨S16x1024, .f32⟩
  | .hbm, ⟨3, _⟩ => ⟨S2048x16x1024, .f32⟩
  | .hbm, ⟨4, _⟩ => ⟨S1x16x1024, .f32⟩
  | .hbm, ⟨5, _⟩ => ⟨S2048x16x1024, .f32⟩
  | .hbm, ⟨6, _⟩ => ⟨S2048x16x1024, .f32⟩
  | .hbm, ⟨7, _⟩ => ⟨S2048x16384, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S16x1024_S1x16x1024_1_2 : S16x1024.BroadcastsInDim S1x16x1024 (![1, 2] : Fin 2 → Fin S1x16x1024.rank)
  bcast_S1x16x1024_S2048x16x1024_0_1_2 : S1x16x1024.BroadcastsInDim S2048x16x1024 (![0, 1, 2] : Fin 3 → Fin S2048x16x1024.rank)
  shapeCasts_S2048x16x1024_S2048x16384 : S2048x16x1024.ShapeCasts S2048x16384
  dot_S2048x1024_S16x1024x1024_S2048x16x1024_1_2_0_01_n_n_wf : DotDims.WF S2048x1024 S16x1024x1024 S2048x16x1024 [1] [2] [0] [0, 1] [] []

variable [Facts₀]

def dot_S2048x1024_S16x1024x1024_S2048x16x1024_1_2_0_01_n_n : DotDims S2048x1024 S16x1024x1024 S2048x16x1024 where
  lhsContracting := [1]
  rhsContracting := [2]
  lhsNonContracting := [0]
  rhsNonContracting := [0, 1]
  lhsBatch := []
  rhsBatch := []
  wf := dot_S2048x1024_S16x1024x1024_S2048x16x1024_1_2_0_01_n_n_wf

class Facts : Prop extends Facts₀ where

variable [Facts]
-- ==== Proof.Stacked.lean ====
/-
  Sixteen linear layers applied to one batch, their outputs laid side by side.

  For a batch `x : [2048, 1024]`, weights `W : [16, 1024, 1024]` (layer, output unit, input unit) and biases
  `b : [16, 1024]`, column `n` of the result belongs to layer `n / 1024` and to that layer's output unit
  `n % 1024`, and the entry at row `r` is the dot product of row `r` of `x` with that unit's weight row, plus the
  unit's bias:

      y[r, n] = (∑ k, x[r, k] · W[n / 1024, n % 1024, k]) + b[n / 1024, n % 1024].

  Both programs of this certificate compute exactly this function on the extended reals; the two other modules say
  so for each of them. Nothing here needs the entries to be finite: the sum is one sum of the same products on
  both sides.
-/
import Idealize.ShloMosaic.Lib.ValueIdx
import Idealize.ShloMosaic.PureOps.Ideal

noncomputable section

open scoped BigOperators

namespace Cert.Stacked

open Idealize.ShloMosaic Idealize.ShloMosaic.ValueIdx

/-- The batch: 2048 rows of 1024 input units. -/
abbrev SBatch : Shape := ⟨2, ![2048, 1024]⟩
/-- The weights: layer, output unit, input unit. -/
abbrev SWeights : Shape := ⟨3, ![16, 1024, 1024]⟩
/-- The biases: layer, output unit. -/
abbrev SBias : Shape := ⟨2, ![16, 1024]⟩
/-- The result: 2048 rows of 16 · 1024 columns. -/
abbrev SOut : Shape := ⟨2, ![2048, 16384]⟩

/-- The layer that owns result column `n`. -/
def layer (n : Fin 16384) : Fin 16 := ⟨n.val / 1024, by have := n.isLt; omega⟩
/-- The output unit, within its layer, of result column `n`. -/
def unitOf (n : Fin 16384) : Fin 1024 := ⟨n.val % 1024, Nat.mod_lt _ (by decide)⟩

theorem layer_val (n : Fin 16384) : (layer n).val = n.val / 1024 := rfl
theorem unitOf_val (n : Fin 16384) : (unitOf n).val = n.val % 1024 := rfl

/-- One entry of the result: row `r`'s dot product with the weight row of column `n`'s unit, plus that unit's bias. -/
def entry (x : FVec Ideal SBatch .f32) (W : FVec Ideal SWeights .f32) (b : FVec Ideal SBias .f32)
    (r : Fin 2048) (n : Fin 16384) : EReal :=
  (∑ k : Fin 1024, x (ix2 r k) * W (ix3 (layer n) (unitOf n) k)) + b (ix2 (layer n) (unitOf n))

/-- The whole result array. -/
def stacked (x : FVec Ideal SBatch .f32) (W : FVec Ideal SWeights .f32) (b : FVec Ideal SBias .f32) :
    FVec Ideal SOut .f32 :=
  fun i => entry x W b (i 0) (i 1)

theorem stacked_apply (x : FVec Ideal SBatch .f32) (W : FVec Ideal SWeights .f32) (b : FVec Ideal SBias .f32)
    (r : Fin 2048) (n : Fin 16384) : stacked x W b (ix2 r n) = entry x W b r n := rfl

end Cert.Stacked

end
-- ==== Proof.RefStacked.lean ====
/-
  The reference computes the stacked layers.

  The reference contracts the batch's input axis against the weights' input axis for all sixteen layers at once,
  which gives an array indexed (row, layer, unit); it adds the bias, broadcast along the rows, and then flattens
  (layer, unit) into one column axis in row-major order, so that column `n` holds layer `n / 1024`, unit `n % 1024`.
  Read at an index (row `r`, column `n`) this is `Cert.Stacked.entry`: the flattening sends (r, n) to
  (r, n / 1024, n % 1024), the contraction there is the sum over `k` of `x[r, k] · W[n / 1024, n % 1024, k]`, and the
  broadcast bias there is `b[n / 1024, n % 1024]`.
-/
import proofs.«175025_j14688788152638_1_alg».proof.Proof.Gen.ReferenceIdeal.Read
import proofs.«175025_j14688788152638_1_alg».proof.Proof.Stacked

noncomputable section

open scoped BigOperators

namespace Cert.ReferenceIdeal.Stacked

open Cert.ReferenceIdeal Cert.ReferenceIdeal.Read Idealize.ShloMosaic Idealize.ShloMosaic.ValueIdx
open Cert.Stacked (layer unitOf entry stacked)

/-- Flattening (layer, unit) to a column and back: the batch row read by the contraction at column index `i`. -/
theorem batch_idx (i : S2048x16384.Idx) (k : Fin 1024) :
    lidx_main_v0 (idx_main_v4 i) k = ix2 (i 0) k := by
  funext a; apply Fin.ext
  have h0 : (i 0).val < 2048 := (i 0).isLt
  have h1 : (i 1).val < 16384 := (i 1).isLt
  match a with
  | ⟨0, _⟩ => show ((i 0).val * 16384 + (i 1).val) / 16384 = (i 0).val; omega
  | ⟨1, _⟩ => rfl

/-- The weight row read by the contraction at column index `i`: the column's layer and unit. -/
theorem weight_idx (i : S2048x16384.Idx) (k : Fin 1024) :
    ridx_main_v0 (idx_main_v4 i) k = ix3 (layer (i 1)) (unitOf (i 1)) k := by
  funext a; apply Fin.ext
  have h0 : (i 0).val < 2048 := (i 0).isLt
  have h1 : (i 1).val < 16384 := (i 1).isLt
  match a with
  | ⟨0, _⟩ => show ((i 0).val * 16384 + (i 1).val) / 1024 % 16 = (i 1).val / 1024; omega
  | ⟨1, _⟩ => show ((i 0).val * 16384 + (i 1).val) % 1024 = (i 1).val % 1024; omega
  | ⟨2, _⟩ => rfl

/-- The bias entry the two broadcasts read at column index `i`: again the column's layer and unit. -/
theorem bias_idx (i : S2048x16384.Idx) :
    idx_main_v1 (idx_main_v2 (idx_main_v4 i)) = ix2 (layer (i 1)) (unitOf (i 1)) := by
  funext a; apply Fin.ext
  have h0 : (i 0).val < 2048 := (i 0).isLt
  have h1 : (i 1).val < 16384 := (i 1).isLt
  match a with
  | ⟨0, _⟩ => show ((i 0).val * 16384 + (i 1).val) / 1024 % 16 = (i 1).val / 1024; omega
  | ⟨1, _⟩ => show ((i 0).val * 16384 + (i 1).val) % 1024 = (i 1).val % 1024; omega

/-- The reference's result, as a function of its three arguments, is the stacked layers. -/
theorem result_eq (x : (⟨S2048x1024, .f32⟩ : BufTy).Contents (Elt Ideal)) (W : (⟨S16x1024x1024, .f32⟩ : BufTy).Contents (Elt Ideal))
    (b : (⟨S16x1024, .f32⟩ : BufTy).Contents (Elt Ideal)) :
    val_main_v4 (F := Ideal) x W b = stacked x W b := by
  funext i
  rw [val_main_v4_apply, val_main_v3_apply, val_main_v0_apply, val_main_v2_apply, val_main_v1_apply]
  simp only [batch_idx, weight_idx, bias_idx, Ideal.addf_def]
  rfl

end Cert.ReferenceIdeal.Stacked

end
-- ==== Proof.KernelTile.lean ====
/-
  One tile of the kernel, read at an index.

  At a grid point the kernel body loads a tile of 512 batch rows (`xs : [512, 1024]`), a tile of 1024 weight rows of
  the flattened weights (`ws : [1024, 1024]`: one row per output column, the input axis along the row) and the matching
  1024 biases (`bs : [1, 1024]`), narrows `xs` and `ws` to bf16 (the identity on extended reals), contracts the input axis of
  both into a zero accumulator, and adds the bias row broadcast down the 512 rows. So the stored tile's entry
  at (p, q) is

      (∑ k, xs[p, k] · ws[q, k]) + bs[0, q].
-/
import proofs.«175025_j14688788152638_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The contraction's operand indices: both operands are contracted along their second axis -/

/-- The batch tile is read in the output's row. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … at the contraction's position along the input axis. -/
theorem lhs_in (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The weight tile is read in the row of the output's COLUMN (the weights are stored one row per output column). -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … at the contraction's position along the input axis. -/
theorem rhs_in (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The contraction into a zero accumulator, at entry (p, q): the dot product of row `p` of the left operand with row `q`
    of the right one. -/
theorem contract_apply {φ₁ φ₂ : FTy} (l : FVec Ideal S512x1024 φ₁) (r : FVec Ideal S1024x1024 φ₂) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (lhs_in _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_row _ _
    | ⟨1, _⟩ => exact (rhs_in _ _).trans hk)
  rw [el, er]

/-- The bias row broadcast down the tile's rows, at entry (p, q): the bias of column `q`. -/
theorem bias_apply (bs : FVec Ideal S1x1024 .f32) (p : Fin 512) (q : Fin 1024) :
    broadcastTo S512x1024 bs broadcasts_S1x1024_S512x1024 (ix2 p q) = bs (ix2 (0 : Fin 1) q) :=
  broadcastTo_apply bs broadcasts_S1x1024_S512x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- THE TILE the body stores, at entry (p, q). -/
theorem tile_apply (xs : Vec Ideal S512x1024 .f32) (ws : Vec Ideal S1024x1024 .f32) (bs : Vec Ideal S1x1024 .f32) (p : Fin 512) (q : Fin 1024) :
    k0_pay1 (F := Ideal) xs ws bs (ix2 p q) = (∑ k : Fin 1024, xs (ix2 p k) * ws (ix2 q k)) + bs (ix2 (0 : Fin 1) q) := by
  unfold k0_pay1
  rw [addf_apply, contract_apply, shapeCast_self, shapeCast_self, bias_apply]
  rfl

end Cert.KernelIdeal.Tile

end
-- ==== Proof.KernelArray.lean ====
/-
  From tiles to the whole array: the kernel computes the stacked layers.

  Before the grid runs, the weights `[16, 1024, 1024]` are flattened to `[16384, 1024]` (row `n` is layer `n / 1024`,
  unit `n % 1024`) and the biases `[16, 1024]` to one row `[1, 16384]`. The grid has 4 × 16 points; the point with block
  coordinates (R, C) reads batch rows `512·R …`, flattened weight rows `1024·C …` and the biases of the same columns, and
  writes the tile of the result with rows `512·R …` and columns `1024·C …`. By `Tile.tile_apply` the tile's entry at
  (p, q) is the dot product of batch row `512·R + p` with flattened weight row `1024·C + q` plus that column's bias —
  which is `Cert.Stacked.entry` at (512·R + p, 1024·C + q). The 64 tiles cover the result, so the result array is
  `Cert.Stacked.stacked` of the three arguments.
-/
import proofs.«175025_j14688788152638_1_alg».proof.Proof.Gen.KernelIdeal.Value
import proofs.«175025_j14688788152638_1_alg».proof.Proof.KernelTile
import proofs.«175025_j14688788152638_1_alg».proof.Proof.Stacked
import Idealize.ShloMosaic.Lib.Pipeline.Value
import Idealize.ShloMosaic.Lib.StableHlo.Run
import Idealize.ShloMosaic.Lib.ValueIdx

noncomputable section

open scoped BigOperators

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Stacked (layer unitOf entry stacked)

variable (m : (ℓ : Loc nD τ sig) → Buf (Elt Ideal) ℓ) (ρ : Dev nD → PrngReg)

theorem hz : (![0, 0] : Fin 2 → Nat) = fun _ => 0 := funext fun a => by
  match a with
  | ⟨0, _⟩ => rfl
  | ⟨1, _⟩ => rfl

/-! ## The flattened weights and biases -/

/-- Row `n` of the flattened weights is the weight row of layer `n / 1024`, unit `n % 1024`. -/
theorem flat_weights_apply (W : FVec Ideal S16x1024x1024 .f32) (n : Fin 16384) (k : Fin 1024) :
    shapeCast S16384x1024 W shapeCasts_S16x1024x1024_S16384x1024 (ix2 n k) = W (ix3 (layer n) (unitOf n) k) :=
  shapeCast_apply W shapeCasts_S16x1024x1024_S16384x1024 (ix2 n k) (ix3 (layer n) (unitOf n) k) (by
    rw [Shape.rowMajor_val_three, Shape.rowMajor_val_two]
    have hn : n.val < 16384 := n.isLt
    show (n.val / 1024 * 1024 + n.val % 1024) * 1024 + k.val = n.val * 1024 + k.val
    omega)

/-- Entry `n` of the flattened bias row is the bias of layer `n / 1024`, unit `n % 1024`. -/
theorem flat_bias_apply (b : FVec Ideal S16x1024 .f32) (n : Fin 16384) :
    shapeCast S1x16384 b shapeCasts_S16x1024_S1x16384 (ix2 (0 : Fin 1) n) = b (ix2 (layer n) (unitOf n)) :=
  shapeCast_apply b shapeCasts_S16x1024_S1x16384 (ix2 (0 : Fin 1) n) (ix2 (layer n) (unitOf n)) (by
    rw [Shape.rowMajor_val_two, Shape.rowMajor_val_two]
    have hn : n.val < 16384 := n.isLt
    show n.val / 1024 * 1024 + n.val % 1024 = 0 * 16384 + n.val
    omega)

/-- What the grid finds in the flattened-weights array: the weights argument, flattened. -/
theorem weights_at_entry (c : Dev nD) :
    (V m c main_v0 : S16384x1024.Idx → EReal) = shapeCast S16384x1024 (m ((c : Thread nD τ).loc main_arg1)) shapeCasts_S16x1024x1024_S16384x1024 := by
  dsimp only [Gen.V, Gen.hostOps0]; after_results; rfl

/-- What the grid finds in the bias-row array: the bias argument, flattened. -/
theorem bias_at_entry (c : Dev nD) :
    (V m c main_v1 : S1x16384.Idx → EReal) = shapeCast S1x16384 (m ((c : Thread nD τ).loc main_arg2)) shapeCasts_S16x1024_S1x16384 := by
  dsimp only [Gen.V, Gen.hostOps0]; after_results; rfl

/-! ## One tile as a piece of the stacked layers -/

/-- A tile computed from a batch tile at block row `R`, a flattened-weights tile and a bias tile at block column `C` is the
    stacked layers' tile at block (R, C). The three hypotheses say which rows and columns of the whole arrays the loaded
    tiles are. -/
theorem tile_is_entry (x : FVec Ideal S2048x1024 .f32) (W : FVec Ideal S16x1024x1024 .f32) (b : FVec Ideal S16x1024 .f32)
    (xs : Vec Ideal S512x1024 .f32) (ws : Vec Ideal S1024x1024 .f32) (bs : Vec Ideal S1x1024 .f32) (R C : Nat)
    (hxs : ∀ (y : S512x1024.Idx) (i : S2048x1024.Idx), (i 0).val = R * 512 + (y 0).val → (i 1).val = (y 1).val → xs y = x i)
    (hws : ∀ (y : S1024x1024.Idx) (i : S16384x1024.Idx), (i 0).val = C * 1024 + (y 0).val → (i 1).val = (y 1).val →
      ws y = shapeCast S16384x1024 W shapeCasts_S16x1024x1024_S16384x1024 i)
    (hbs : ∀ (y : S1x1024.Idx) (i : S1x16384.Idx), (i 1).val = C * 1024 + (y 1).val →
      bs y = shapeCast S1x16384 b shapeCasts_S16x1024_S1x16384 i)
    (y : S512x1024.Idx) (i : S2048x16384.Idx) (h0 : (i 0).val = R * 512 + (y 0).val) (h1 : (i 1).val = C * 1024 + (y 1).val) :
    k0_pay1 (F := Ideal) xs ws bs y = stacked x W b i := by
  obtain ⟨p, q, rfl⟩ : ∃ (p : Fin 512) (q : Fin 1024), y = ix2 p q := ⟨y 0, y 1, eq_ix2 y⟩
  obtain ⟨r, n, rfl⟩ : ∃ (r : Fin 2048) (n : Fin 16384), i = ix2 r n := ⟨i 0, i 1, eq_ix2 i⟩
  rw [Tile.tile_apply, Cert.Stacked.stacked_apply]
  unfold entry
  have hb : bs (ix2 (0 : Fin 1) q) = b (ix2 (layer n) (unitOf n)) :=
    (hbs (ix2 (0 : Fin 1) q) (ix2 (0 : Fin 1) n) h1).trans (flat_bias_apply b n)
  rw [hb]
  congr 1
  refine Finset.sum_congr rfl fun k _ => ?_
  rw [hxs (ix2 p k) (ix2 r k) h0 rfl, hws (ix2 q k) (ix2 n k) h1 rfl, flat_weights_apply]

/-! ## The tiles the grid loads -/

/-- How the four windows move over the grid: the batch tile follows the output's block row, the weight and bias tiles
    its block column; decided over the 64 points. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2) :=
  (by decide +kernel : ∀ t : Fin grid0.N, _)

/-- Every block of the result is some point's. -/
theorem idx_onto : ∀ (R : Fin 4) (C : Fin 16), ∃ t : Fin cfg0.N, win0_3.index t = ![R.val, C.val] :=
  (by decide +kernel : ∀ (R : Fin 4) (C : Fin 16), ∃ t : Fin grid0.N, win0_3.index t = ![R.val, C.val])

/-- The batch tile at point `t` is rows `512·R …` of the batch, `R` the point's block row. -/
theorem batch_tile (c : Dev nD) (t : Fin cfg0.N) (y : S512x1024.Idx) (i : S2048x1024.Idx)
    (h0 : (i 0).val = win0_3.index t (0 : Fin 2) * 512 + (y 0).val) (h1 : (i 1).val = (y 1).val) :
    (iblk m c 0 t : Vec Ideal S512x1024 .f32) y = m ((c : Thread nD τ).loc main_arg0) i := by
  obtain ⟨e0, e1, -, -, -, -⟩ := idx_facts t
  unfold iblk
  rw [View.read_apply]
  show V m c main_arg0 _ = _
  rw [V_main_arg0]
  congr 1
  funext a; apply Fin.ext
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The weight tile at point `t` is rows `1024·C …` of the flattened weights, `C` the point's block column. -/
theorem weight_tile (c : Dev nD) (t : Fin cfg0.N) (y : S1024x1024.Idx) (i : S16384x1024.Idx)
    (h0 : (i 0).val = win0_3.index t (1 : Fin 2) * 1024 + (y 0).val) (h1 : (i 1).val = (y 1).val) :
    (iblk m c 1 t : Vec Ideal S1024x1024 .f32) y
      = shapeCast S16384x1024 (m ((c : Thread nD τ).loc main_arg1)) shapeCasts_S16x1024x1024_S16384x1024 i := by
  obtain ⟨-, -, e2, e3, -, -⟩ := idx_facts t
  unfold iblk
  rw [View.read_apply]
  show (V m c main_v0 : S16384x1024.Idx → EReal) _ = _
  rw [weights_at_entry]
  congr 1
  funext a; apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The bias tile at point `t` is entries `1024·C …` of the flattened bias row. -/
theorem bias_tile (c : Dev nD) (t : Fin cfg0.N) (y : S1x1024.Idx) (i : S1x16384.Idx)
    (h1 : (i 1).val = win0_3.index t (1 : Fin 2) * 1024 + (y 1).val) :
    (iblk m c 2 t : Vec Ideal S1x1024 .f32) y
      = shapeCast S1x16384 (m ((c : Thread nD τ).loc main_arg2)) shapeCasts_S16x1024_S1x16384 i := by
  obtain ⟨-, -, -, -, e4, e5⟩ := idx_facts t
  unfold iblk
  rw [View.read_apply]
  show (V m c main_v1 : S1x16384.Idx → EReal) _ = _
  rw [bias_at_entry]
  congr 1
  funext a; apply Fin.ext
  have hy : (y 0).val < 1 := (y 0).isLt
  have hi : (i 0).val < 1 := (i 0).isLt
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-! ## The result array -/

/-- The stacked layers of the three arguments as launched. -/
abbrev result (c : Dev nD) : S2048x16384.Idx → EReal :=
  stacked (m ((c : Thread nD τ).loc main_arg0)) (m ((c : Thread nD τ).loc main_arg1)) (m ((c : Thread nD τ).loc main_arg2))

/-- WHAT POINT `t` WRITES BACK is its tile of the stacked layers. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S512x1024) hz, View.ld_unit_zero (S := S1024x1024) hz, View.ld_unit_zero (S := S1x1024) hz]
  funext j
  show k0_pay1 (F := Ideal) (iblk m c 0 t) (iblk m c 1 t) (iblk m c 2 t) j = result m c (((cfg0.win 3).blk t).view.emb j)
  exact tile_is_entry (m ((c : Thread nD τ).loc main_arg0)) (m ((c : Thread nD τ).loc main_arg1)) (m ((c : Thread nD τ).loc main_arg2))
    (iblk m c 0 t) (iblk m c 1 t) (iblk m c 2 t) (win0_3.index t (0 : Fin 2)) (win0_3.index t (1 : Fin 2))
    (fun y i h0 h1 => batch_tile m c t y i h0 h1) (fun y i h0 h1 => weight_tile m c t y i h0 h1) (fun y i h1 => bias_tile m c t y i h1)
    j (((cfg0.win 3).blk t).view.emb j)
    (by show win0_3.index t (0 : Fin 2) * 512 + 1 * (j 0).val = _; omega)
    (by show win0_3.index t (1 : Fin 2) * 1024 + 1 * (j 1).val = _; omega)

/-- An index of the result is in point `t`'s tile iff each coordinate is in the tile's range. -/
theorem mem_blk (t : Fin cfg0.N) (i : S2048x16384.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- The 64 tiles cover the result: entry (r, n) is in the tile at block (r / 512, n / 1024). -/
theorem cover (i : S2048x16384.Idx) : ∃ t : Fin cfg0.N, (cfg0.win 3).flush t = true ∧ i ∈ ((cfg0.win 3).blk t).view.set := by
  have hi0 : (i 0).val < 2048 := (i 0).isLt
  have hi1 : (i 1).val < 16384 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the run is the stacked layers of the arguments. -/
theorem final (c : Dev nD) : (dats m 0 c).arrAt 3 cfg0.N = result m c :=
  (dats m 0 c).arrAt_eq_of_cover 3 (result m c) (fun t _ => flushed_eq m c t) cover

/-- The kernel's run, read: the result array at the stacked layers, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  Sixteen linear layers on one batch, computed as one tiled matrix product, against the einsum that defines them.

  The kernel flattens the weights `[16, 1024, 1024]` to `[16384, 1024]` and the biases to one row of 16384, and
  computes the `[2048, 16384]` result tile by tile: each of the 4 × 16 grid points contracts 512 batch rows against
  1024 flattened weight rows and adds the matching biases. The reference contracts the batch against all sixteen
  layers' weights at once, adds the biases, and flattens (layer, unit) into the column axis. On the extended reals both
  are the one function `Cert.Stacked.stacked`:

      y[r, n] = (∑ k, x[r, k] · W[n / 1024, n % 1024, k]) + b[n / 1024, n % 1024],

  the same sum of the same products on both sides (the kernel's narrowing of its operands to bf16 is the identity
  there), so no finiteness of the inputs is used. `Proof/KernelArray.lean` reads the kernel's run as this function,
  `Proof/RefStacked.lean` the reference's. The frames are the generated ones (the reference's is its generated run with
  the result dropped), and the idealization rewrote nothing, so `preserves` has nothing to state.
-/
import proofs.«175025_j14688788152638_1_alg».proof.Defs
import proofs.«175025_j14688788152638_1_alg».proof.Proof.Gen.Kernel
import proofs.«175025_j14688788152638_1_alg».proof.Proof.Gen.Kernel.Skeleton
import proofs.«175025_j14688788152638_1_alg».proof.Proof.Gen.Kernel.Launch
import proofs.«175025_j14688788152638_1_alg».proof.Proof.Gen.Kernel.Points
import proofs.«175025_j14688788152638_1_alg».proof.Proof.Gen.Kernel.Frame
import proofs.«175025_j14688788152638_1_alg».proof.Proof.Gen.KernelIdeal
import proofs.«175025_j14688788152638_1_alg».proof.Proof.Gen.KernelIdeal.Skeleton
import proofs.«175025_j14688788152638_1_alg».proof.Proof.Gen.KernelIdeal.Launch
import proofs.«175025_j14688788152638_1_alg».proof.Proof.Gen.KernelIdeal.Points
import proofs.«175025_j14688788152638_1_alg».proof.Proof.Gen.KernelIdeal.Frame
import proofs.«175025_j14688788152638_1_alg».proof.Proof.Gen.KernelIdeal.Value
import proofs.«175025_j14688788152638_1_alg».proof.Proof.Gen.ReferenceIdeal
import proofs.«175025_j14688788152638_1_alg».proof.Proof.Gen.ReferenceIdeal.Run
import proofs.«175025_j14688788152638_1_alg».proof.Proof.Gen.ReferenceIdeal.Read
import proofs.«175025_j14688788152638_1_alg».proof.Proof.Gen.Pre_finite_inputs
import proofs.«175025_j14688788152638_1_alg».proof.Proof.Stacked
import proofs.«175025_j14688788152638_1_alg».proof.Proof.RefStacked
import proofs.«175025_j14688788152638_1_alg».proof.Proof.KernelTile
import proofs.«175025_j14688788152638_1_alg».proof.Proof.KernelArray
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the stacked layers of their (agreeing) arguments in the result array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.Stacked.result_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
